-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1x3x32x32 : Shape := ⟨5, ![1024, 1, 3, 32, 32]⟩
abbrev S768x48 : Shape := ⟨2, ![768, 48]⟩
abbrev S1x768 : Shape := ⟨2, ![1, 768]⟩
abbrev S1x65x768 : Shape := ⟨3, ![1, 65, 768]⟩
abbrev S_ : Shape := ⟨0, ![]⟩

class Facts : Prop where
  bcast_S_S1024x1x3x32x32 : S_.BroadcastsInDim S1024x1x3x32x32 (![] : Fin 0 → Fin S1024x1x3x32x32.rank)
  reducesTo_S1024x1x3x32x32_S_d0_1_2_3_4 : S1024x1x3x32x32.ReducesTo [0, 1, 2, 3, 4] S_
  h_S_ : 0 < S_.numel
  bcast_S_S768x48 : S_.BroadcastsInDim S768x48 (![] : Fin 0 → Fin S768x48.rank)
  reducesTo_S768x48_S_d0_1 : S768x48.ReducesTo [0, 1] S_
  bcast_S_S1x768 : S_.BroadcastsInDim S1x768 (![] : Fin 0 → Fin S1x768.rank)
  reducesTo_S1x768_S_d0_1 : S1x768.ReducesTo [0, 1] S_
  bcast_S_S1x65x768 : S_.BroadcastsInDim S1x65x768 (![] : Fin 0 → Fin S1x65x768.rank)
  reducesTo_S1x65x768_S_d0_1_2 : S1x65x768.ReducesTo [0, 1, 2] S_

variable [Facts]

def fn_part1 {F : FTy → Type} [FloatOps F] (main_v13 : IVec S_ 1) (main_v16 : IVec S1x65x768 1) : IVec S_ 1 :=
  let main_c_5 : IVec S_ 1 := constantI S_ 1 1#1
  let main_v17 : IVec S_ 1 := (fun x v => Host.reduce IntOp.andi x v reducesTo_S1x65x768_S_d0_1_2 h_S_) main_v16 main_c_5
  let main_v18 : IVec S_ 1 := andi main_v13 main_v17
  main_v18

def fn {F : FTy → Type} [FloatOps F] (main_arg0 : FVec F S1024x1x3x32x32 .f32) (main_arg1 : FVec F S768x48 .f32) (main_arg2 : FVec F S1x768 .f32) (main_arg3 : FVec F S1x65x768 .f32) : IVec S_ 1 :=
  let main_v0 : FVec F S1024x1x3x32x32 .f32 := Host.absf main_arg0
  let main_cst : FVec F S_ .f32 := constant S_ .f32 0x7F800000#32
  let main_v1 : FVec F S1024x1x3x32x32 .f32 := broadcastInDim S1024x1x3x32x32 ![] bcast_S_S1024x1x3x32x32 main_cst
  let main_v2 : IVec S1024x1x3x32x32 1 := cmpf .olt main_v0 main_v1
  let main_c : IVec S_ 1 := constantI S_ 1 1#1
  let main_v3 : IVec S_ 1 := (fun x v => Host.reduce IntOp.andi x v reducesTo_S1024x1x3x32x32_S_d0_1_2_3_4 h_S_) main_v2 main_c
  let main_v4 : FVec F S768x48 .f32 := Host.absf main_arg1
  let main_cst_0 : FVec F S_ .f32 := constant S_ .f32 0x7F800000#32
  let main_v5 : FVec F S768x48 .f32 := broadcastInDim S768x48 ![] bcast_S_S768x48 main_cst_0
  let main_v6 : IVec S768x48 1 := cmpf .olt main_v4 main_v5
  let main_c_1 : IVec S_ 1 := constantI S_ 1 1#1
  let main_v7 : IVec S_ 1 := (fun x v => Host.reduce IntOp.andi x v reducesTo_S768x48_S_d0_1 h_S_) main_v6 main_c_1
  let main_v8 : IVec S_ 1 := andi main_v3 main_v7
  let main_v9 : FVec F S1x768 .f32 := Host.absf main_arg2
  let main_cst_2 : FVec F S_ .f32 := constant S_ .f32 0x7F800000#32
  let main_v10 : FVec F S1x768 .f32 := broadcastInDim S1x768 ![] bcast_S_S1x768 main_cst_2
  let main_v11 : IVec S1x768 1 := cmpf .olt main_v9 main_v10
  let main_c_3 : IVec S_ 1 := constantI S_ 1 1#1
  let main_v12 : IVec S_ 1 := (fun x v => Host.reduce IntOp.andi x v reducesTo_S1x768_S_d0_1 h_S_) main_v11 main_c_3
  let main_v13 : IVec S_ 1 := andi main_v8 main_v12
  let main_v14 : FVec F S1x65x768 .f32 := Host.absf main_arg3
  let main_cst_4 : FVec F S_ .f32 := constant S_ .f32 0x7F800000#32
  let main_v15 : FVec F S1x65x768 .f32 := broadcastInDim S1x65x768 ![] bcast_S_S1x65x768 main_cst_4
  let main_v16 : IVec S1x65x768 1 := cmpf .olt main_v14 main_v15
  fn_part1 (F := F) main_v13 main_v16
-- ==== Kernel.lean ====
abbrev S1024x1x3x32x32 : Shape := ⟨5, ![1024, 1, 3, 32, 32]⟩
abbrev S768x48 : Shape := ⟨2, ![768, 48]⟩
abbrev S1x768 : Shape := ⟨2, ![1, 768]⟩
abbrev S1x65x768 : Shape := ⟨3, ![1, 65, 768]⟩
abbrev S1024x1x3x8x4x8x4 : Shape := ⟨7, ![1024, 1, 3, 8, 4, 8, 4]⟩
abbrev S1024x8x8x1x3x4x4 : Shape := ⟨7, ![1024, 8, 8, 1, 3, 4, 4]⟩
abbrev S1024x64x48 : Shape := ⟨3, ![1024, 64, 48]⟩
abbrev S48x768 : Shape := ⟨2, ![48, 768]⟩
abbrev S1024x65x768 : Shape := ⟨3, ![1024, 65, 768]⟩
abbrev S32x64x48 : Shape := ⟨3, ![32, 64, 48]⟩
abbrev S32x65x768 : Shape := ⟨3, ![32, 65, 768]⟩
abbrev S2048x48 : Shape := ⟨2, ![2048, 48]⟩
abbrev S2048x768 : Shape := ⟨2, ![2048, 768]⟩
abbrev S32x64x768 : Shape := ⟨3, ![32, 64, 768]⟩
abbrev S1x1x768 : Shape := ⟨3, ![1, 1, 768]⟩
abbrev S32x1x768 : Shape := ⟨3, ![32, 1, 768]⟩
abbrev S1x64x768 : Shape := ⟨3, ![1, 64, 768]⟩

abbrev nBuf : Space → Nat
  | .hbm => 9
  | .vmem => 7
  | .smem => 0
  | _ => 0

abbrev bufTy : (tb : Table) → Fin (tcTables nBuf tb) → BufTy
  | .hbm, ⟨0, _⟩ => ⟨S1024x1x3x32x32, .f32⟩
  | .hbm, ⟨1, _⟩ => ⟨S768x48, .f32⟩
  | .hbm, ⟨2, _⟩ => ⟨S1x768, .f32⟩
  | .hbm, ⟨3, _⟩ => ⟨S1x65x768, .f32⟩
  | .hbm, ⟨4, _⟩ => ⟨S1024x1x3x8x4x8x4, .f32⟩
  | .hbm, ⟨5, _⟩ => ⟨S1024x8x8x1x3x4x4, .f32⟩
  | .hbm, ⟨6, _⟩ => ⟨S1024x64x48, .f32⟩
  | .hbm, ⟨7, _⟩ => ⟨S48x768, .f32⟩
  | .hbm, ⟨8, _⟩ => ⟨S1024x65x768, .f32⟩
  | .local _ .vmem, ⟨0, _⟩ => ⟨S32x64x48, .f32⟩
  | .local _ .vmem, ⟨1, _⟩ => ⟨S32x64x48, .f32⟩
  | .local _ .vmem, ⟨2, _⟩ => ⟨S48x768, .f32⟩
  | .local _ .vmem, ⟨3, _⟩ => ⟨S1x768, .f32⟩
  | .local _ .vmem, ⟨4, _⟩ => ⟨S1x65x768, .f32⟩
  | .local _ .vmem, ⟨5, _⟩ => ⟨S32x65x768, .f32⟩
  | .local _ .vmem, ⟨6, _⟩ => ⟨S32x65x768, .f32⟩
  | _, _ => ⟨S1024x1x3x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x64x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x65x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x65x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1x3x32x32_S1024x1x3x8x4x8x4 : S1024x1x3x32x32.ShapeCasts S1024x1x3x8x4x8x4
  transposes_S1024x1x3x8x4x8x4_S1024x8x8x1x3x4x4_0_3_5_1_2_4_6 : S1024x1x3x8x4x8x4.Transposes [0, 3, 5, 1, 2, 4, 6] S1024x8x8x1x3x4x4
  shapeCasts_S1024x8x8x1x3x4x4_S1024x64x48 : S1024x8x8x1x3x4x4.ShapeCasts S1024x64x48
  transposes_S768x48_S48x768_1_0 : S768x48.Transposes [1, 0] S48x768
  inb_S32x64x48_S32x64x48_0_0_0 : ∀ a, (![0, 0, 0] : Fin 3 → Nat) a + S32x64x48.size a ≤ S32x64x48.size a
  h_S32x64x48 : 0 < S32x64x48.numel
  shapeCasts_S32x64x48_S32x64x48 : S32x64x48.ShapeCasts S32x64x48
  bitsLt_bf16_f32 : FTy.bits .bf16 < FTy.bits .f32
  shapeCasts_S32x64x48_S2048x48 : S32x64x48.ShapeCasts S2048x48
  inb_S48x768_S48x768_0_0 : ∀ a, (![0, 0] : Fin 2 → Nat) a + S48x768.size a ≤ S48x768.size a
  h_S48x768 : 0 < S48x768.numel
  shapeCasts_S48x768_S48x768 : S48x768.ShapeCasts S48x768
  shapeCasts_S2048x768_S32x64x768 : S2048x768.ShapeCasts S32x64x768
  inb_S1x65x768_S1x65x768_0_0_0 : ∀ a, (![0, 0, 0] : Fin 3 → Nat) a + S1x65x768.size a ≤ S1x65x768.size a
  h_S1x65x768 : 0 < S1x65x768.numel
  inb_S1x768_S1x768_0_0 : ∀ a, (![0, 0] : Fin 2 → Nat) a + S1x768.size a ≤ S1x768.size a
  h_S1x768 : 0 < S1x768.numel
  shapeCasts_S1x768_S1x1x768 : S1x768.ShapeCasts S1x1x768
  shapeCasts_S1x1x768_S1x1x768 : S1x1x768.ShapeCasts S1x1x768
  broadcasts_S1x1x768_S32x1x768 : S1x1x768.Broadcasts S32x1x768
  slices_S1x65x768_o0_0_0_S1x1x768 : S1x65x768.Slices ![0, 0, 0] S1x1x768
  slices_S1x65x768_o0_1_0_S1x64x768 : S1x65x768.Slices ![0, 1, 0] S1x64x768
  broadcasts_S1x64x768_S32x64x768 : S1x64x768.Broadcasts S32x64x768
  inb_S32x65x768_S32x1x768_0_0_0 : ∀ a, (![0, 0, 0] : Fin 3 → Nat) a + S32x1x768.size a ≤ S32x65x768.size a
  h_S32x1x768 : 0 < S32x1x768.numel
  inb_S32x65x768_S32x64x768_0_1_0 : ∀ a, (![0, 1, 0] : Fin 3 → Nat) a + S32x64x768.size a ≤ S32x65x768.size a
  h_S32x64x768 : 0 < S32x64x768.numel
  dot_S2048x48_S48x768_S2048x768_1_0_0_1_n_n_wf : DotDims.WF S2048x48 S48x768 S2048x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x64x48.size a ≤ S1024x64x48.size a
  hwx0_0 : ∀ i : grid0.Coords, EltTy.bits .f32 = 32 ∨ (Rect.block (s := S1024x64x48) S32x64x48.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x768.size a ≤ S48x768.size a
  hwx0_1 : ∀ i : grid0.Coords, EltTy.bits .f32 = 32 ∨ (Rect.block (s := S48x768) S48x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x65x768.size a ≤ S1x65x768.size a
  hwx0_3 : ∀ i : grid0.Coords, EltTy.bits .f32 = 32 ∨ (Rect.block (s := S1x65x768) S1x65x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x65x768.size a ≤ S1024x65x768.size a
  hwx0_4 : ∀ i : grid0.Coords, EltTy.bits .f32 = 32 ∨ (Rect.block (s := S1024x65x768) S32x65x768.size (cc0_transform_4 i) (hinb0_4 i)).WholeWords (EltTy.packing .f32)

variable [Facts₀]

def dot_S2048x48_S48x768_S2048x768_1_0_0_1_n_n : DotDims S2048x48 S48x768 S2048x768 where
  lhsContracting := [1]
  rhsContracting := [0]
  lhsNonContracting := [0]
  rhsNonContracting := [1]
  lhsBatch := []
  rhsBatch := []
  wf := dot_S2048x48_S48x768_S2048x768_1_0_0_1_n_n_wf

abbrev win0_0 : Pipeline.Window sig grid0 :=
  Pipeline.Window.ofSpec (Memref.whole main_v2) S32x64x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S48x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x65x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S32x65x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S1024x1x3x32x32 : Shape := ⟨5, ![1024, 1, 3, 32, 32]⟩
abbrev S768x48 : Shape := ⟨2, ![768, 48]⟩
abbrev S1x768 : Shape := ⟨2, ![1, 768]⟩
abbrev S1x65x768 : Shape := ⟨3, ![1, 65, 768]⟩
abbrev S1024x1x3x8x4x8x4 : Shape := ⟨7, ![1024, 1, 3, 8, 4, 8, 4]⟩
abbrev S1024x8x8x1x3x4x4 : Shape := ⟨7, ![1024, 8, 8, 1, 3, 4, 4]⟩
abbrev S1024x64x48 : Shape := ⟨3, ![1024, 64, 48]⟩
abbrev S1024x64x768 : Shape := ⟨3, ![1024, 64, 768]⟩
abbrev S1x1x768 : Shape := ⟨3, ![1, 1, 768]⟩
abbrev S1024x1x768 : Shape := ⟨3, ![1024, 1, 768]⟩
abbrev S1024x65x768 : Shape := ⟨3, ![1024, 65, 768]⟩

abbrev nBuf : Space → Nat
  | .hbm => 13
  | .vmem => 0
  | .smem => 0
  | _ => 0

abbrev bufTy : (tb : Table) → Fin (tcTables nBuf tb) → BufTy
  | .hbm, ⟨0, _⟩ => ⟨S1024x1x3x32x32, .f32⟩
  | .hbm, ⟨1, _⟩ => ⟨S768x48, .f32⟩
  | .hbm, ⟨2, _⟩ => ⟨S1x768, .f32⟩
  | .hbm, ⟨3, _⟩ => ⟨S1x65x768, .f32⟩
  | .hbm, ⟨4, _⟩ => ⟨S1024x1x3x8x4x8x4, .f32⟩
  | .hbm, ⟨5, _⟩ => ⟨S1024x8x8x1x3x4x4, .f32⟩
  | .hbm, ⟨6, _⟩ => ⟨S1024x64x48, .f32⟩
  | .hbm, ⟨7, _⟩ => ⟨S1024x64x768, .f32⟩
  | .hbm, ⟨8, _⟩ => ⟨S1x1x768, .f32⟩
  | .hbm, ⟨9, _⟩ => ⟨S1024x1x768, .f32⟩
  | .hbm, ⟨10, _⟩ => ⟨S1024x65x768, .f32⟩
  | .hbm, ⟨11, _⟩ => ⟨S1024x65x768, .f32⟩
  | .hbm, ⟨12, _⟩ => ⟨S1024x65x768, .f32⟩
  | _, _ => ⟨S1024x1x3x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]

class Facts₀ : Prop where
  shapeCasts_S1024x1x3x32x32_S1024x1x3x8x4x8x4 : S1024x1x3x32x32.ShapeCasts S1024x1x3x8x4x8x4
  transposes_S1024x1x3x8x4x8x4_S1024x8x8x1x3x4x4_0_3_5_1_2_4_6 : S1024x1x3x8x4x8x4.Transposes [0, 3, 5, 1, 2, 4, 6] S1024x8x8x1x3x4x4
  shapeCasts_S1024x8x8x1x3x4x4_S1024x64x48 : S1024x8x8x1x3x4x4.ShapeCasts S1024x64x48
  bcast_S1x768_S1x1x768_1_2 : S1x768.BroadcastsInDim S1x1x768 (![1, 2] : Fin 2 → Fin S1x1x768.rank)
  bcast_S1x1x768_S1024x1x768_0_1_2 : S1x1x768.BroadcastsInDim S1024x1x768 (![0, 1, 2] : Fin 3 → Fin S1024x1x768.rank)
  concatenates_S1024x1x768_S1024x64x768_S1024x65x768_d1 : Shape.Concatenates [S1024x1x768, S1024x64x768] S1024x65x768 1
  bcast_S1x65x768_S1024x65x768_0_1_2 : S1x65x768.BroadcastsInDim S1024x65x768 (![0, 1, 2] : Fin 3 → Fin S1024x65x768.rank)
  dot_S1024x64x48_S768x48_S1024x64x768_2_1_01_0_n_n_wf : DotDims.WF S1024x64x48 S768x48 S1024x64x768 [2] [1] [0, 1] [0] [] []

variable [Facts₀]

def dot_S1024x64x48_S768x48_S1024x64x768_2_1_01_0_n_n : DotDims S1024x64x48 S768x48 S1024x64x768 where
  lhsContracting := [2]
  rhsContracting := [1]
  lhsNonContracting := [0, 1]
  rhsNonContracting := [0]
  lhsBatch := []
  rhsBatch := []
  wf := dot_S1024x64x48_S768x48_S1024x64x768_2_1_01_0_n_n_wf

class Facts : Prop extends Facts₀ where

variable [Facts]
-- ==== Proof.Embed.lean ====
/-
  The function both programs compute, written once over plain index coordinates.

  An image is cut into 64 patches of 48 numbers each. Output token 0 of every image is the class
  token plus position embedding 0. Output token n + 1 is patch n projected by the weight matrix
  (for each of the 768 output features a sum of 48 products) plus position embedding n + 1.

  Two forms are stated: for the whole batch of 1024 images against the weight matrix as given
  (768 by 48), and for one tile of 32 images against the transposed weight matrix (48 by 768),
  which is what one grid point of the kernel sees.
-/
import Idealize.ShloMosaic.PureOps.Ideal
import Idealize.ShloMosaic.Lib.ValueIdx

noncomputable section

open scoped BigOperators

namespace Cert.PatchEmbed

open Idealize.ShloMosaic Idealize.ShloMosaic.ValueIdx

/-- A token number that is not zero has a patch before it. -/
theorem pred_lt {n : Fin 65} (h : ¬ n.val = 0) : n.val - 1 < 64 := by have := n.isLt; omega

/-- Entry (image b, token n, feature e) of the embedded batch, from the patches, the weight matrix,
    the class token and the position embeddings. -/
def embedAt (patches : FVec Ideal ⟨3, ![1024, 64, 48]⟩ .f32) (w : FVec Ideal ⟨2, ![768, 48]⟩ .f32)
    (cls : FVec Ideal ⟨2, ![1, 768]⟩ .f32) (pos : FVec Ideal ⟨3, ![1, 65, 768]⟩ .f32)
    (b : Fin 1024) (n : Fin 65) (e : Fin 768) : EReal :=
  if h : n.val = 0 then cls (ix2 0 e) + pos (ix3 0 0 e)
  else (∑ k : Fin 48, patches (ix3 b ⟨n.val - 1, pred_lt h⟩ k) * w (ix2 e k)) + pos (ix3 0 n e)

/-- The embedded batch as an array. -/
def embed (patches : FVec Ideal ⟨3, ![1024, 64, 48]⟩ .f32) (w : FVec Ideal ⟨2, ![768, 48]⟩ .f32)
    (cls : FVec Ideal ⟨2, ![1, 768]⟩ .f32) (pos : FVec Ideal ⟨3, ![1, 65, 768]⟩ .f32) :
    FVec Ideal ⟨3, ![1024, 65, 768]⟩ .f32 :=
  fun i => embedAt patches w cls pos (i 0) (i 1) (i 2)

/-- Entry (image b of the tile, token n, feature e) of one embedded tile of 32 images, from the tile's
    patches and the TRANSPOSED weight matrix. -/
def tileAt (x : FVec Ideal ⟨3, ![32, 64, 48]⟩ .f32) (wt : FVec Ideal ⟨2, ![48, 768]⟩ .f32)
    (cls : FVec Ideal ⟨2, ![1, 768]⟩ .f32) (pos : FVec Ideal ⟨3, ![1, 65, 768]⟩ .f32)
    (b : Fin 32) (n : Fin 65) (e : Fin 768) : EReal :=
  if h : n.val = 0 then cls (ix2 0 e) + pos (ix3 0 0 e)
  else (∑ k : Fin 48, x (ix3 b ⟨n.val - 1, pred_lt h⟩ k) * wt (ix2 k e)) + pos (ix3 0 n e)

/-- One embedded tile as an array. -/
def tile (x : FVec Ideal ⟨3, ![32, 64, 48]⟩ .f32) (wt : FVec Ideal ⟨2, ![48, 768]⟩ .f32)
    (cls : FVec Ideal ⟨2, ![1, 768]⟩ .f32) (pos : FVec Ideal ⟨3, ![1, 65, 768]⟩ .f32) :
    FVec Ideal ⟨3, ![32, 65, 768]⟩ .f32 :=
  fun i => tileAt x wt cls pos (i 0) (i 1) (i 2)

/-- Token 0 of a tile. -/
theorem tileAt_zero (x : FVec Ideal ⟨3, ![32, 64, 48]⟩ .f32) (wt : FVec Ideal ⟨2, ![48, 768]⟩ .f32)
    (cls : FVec Ideal ⟨2, ![1, 768]⟩ .f32) (pos : FVec Ideal ⟨3, ![1, 65, 768]⟩ .f32)
    (b : Fin 32) (n : Fin 65) (e : Fin 768) (h : n.val = 0) :
    tileAt x wt cls pos b n e = cls (ix2 0 e) + pos (ix3 0 0 e) := by
  unfold tileAt; rw [dif_pos h]

/-- Token p + 1 of a tile. -/
theorem tileAt_succ (x : FVec Ideal ⟨3, ![32, 64, 48]⟩ .f32) (wt : FVec Ideal ⟨2, ![48, 768]⟩ .f32)
    (cls : FVec Ideal ⟨2, ![1, 768]⟩ .f32) (pos : FVec Ideal ⟨3, ![1, 65, 768]⟩ .f32)
    (b : Fin 32) (n : Fin 65) (e : Fin 768) (p : Fin 64) (h : n.val = p.val + 1) :
    tileAt x wt cls pos b n e = (∑ k : Fin 48, x (ix3 b p k) * wt (ix2 k e)) + pos (ix3 0 n e) := by
  unfold tileAt
  have h0 : ¬ n.val = 0 := by omega
  rw [dif_neg h0]
  have hp : (⟨n.val - 1, pred_lt h0⟩ : Fin 64) = p := Fin.ext (by show n.val - 1 = p.val; omega)
  rw [hp]

/-- Token 0 of the batch. -/
theorem embedAt_zero (patches : FVec Ideal ⟨3, ![1024, 64, 48]⟩ .f32) (w : FVec Ideal ⟨2, ![768, 48]⟩ .f32)
    (cls : FVec Ideal ⟨2, ![1, 768]⟩ .f32) (pos : FVec Ideal ⟨3, ![1, 65, 768]⟩ .f32)
    (b : Fin 1024) (n : Fin 65) (e : Fin 768) (h : n.val = 0) :
    embedAt patches w cls pos b n e = cls (ix2 0 e) + pos (ix3 0 0 e) := by
  unfold embedAt; rw [dif_pos h]

/-- Token p + 1 of the batch. -/
theorem embedAt_succ (patches : FVec Ideal ⟨3, ![1024, 64, 48]⟩ .f32) (w : FVec Ideal ⟨2, ![768, 48]⟩ .f32)
    (cls : FVec Ideal ⟨2, ![1, 768]⟩ .f32) (pos : FVec Ideal ⟨3, ![1, 65, 768]⟩ .f32)
    (b : Fin 1024) (n : Fin 65) (e : Fin 768) (p : Fin 64) (h : n.val = p.val + 1) :
    embedAt patches w cls pos b n e = (∑ k : Fin 48, patches (ix3 b p k) * w (ix2 e k)) + pos (ix3 0 n e) := by
  unfold embedAt
  have h0 : ¬ n.val = 0 := by omega
  rw [dif_neg h0]
  have hp : (⟨n.val - 1, pred_lt h0⟩ : Fin 64) = p := Fin.ext (by show n.val - 1 = p.val; omega)
  rw [hp]

/-! The same four facts with the entry given as an array index and its coordinates as numbers. -/

theorem tile_zero_of (x : FVec Ideal ⟨3, ![32, 64, 48]⟩ .f32) (wt : FVec Ideal ⟨2, ![48, 768]⟩ .f32)
    (cls : FVec Ideal ⟨2, ![1, 768]⟩ .f32) (pos : FVec Ideal ⟨3, ![1, 65, 768]⟩ .f32)
    (i : (⟨3, ![32, 65, 768]⟩ : Shape).Idx) (e : Fin 768) (h1 : (i 1).val = 0) (h2 : (i 2).val = e.val) :
    tile x wt cls pos i = cls (ix2 0 e) + pos (ix3 0 0 e) := by
  obtain ⟨i0, i1, i2, rfl⟩ : ∃ (i0 : Fin 32) (i1 : Fin 65) (i2 : Fin 768), i = ix3 i0 i1 i2 := ⟨i 0, i 1, i 2, eq_ix3 i⟩
  obtain rfl : i2 = e := Fin.ext h2
  exact tileAt_zero x wt cls pos i0 i1 i2 h1

theorem tile_succ_of (x : FVec Ideal ⟨3, ![32, 64, 48]⟩ .f32) (wt : FVec Ideal ⟨2, ![48, 768]⟩ .f32)
    (cls : FVec Ideal ⟨2, ![1, 768]⟩ .f32) (pos : FVec Ideal ⟨3, ![1, 65, 768]⟩ .f32)
    (i : (⟨3, ![32, 65, 768]⟩ : Shape).Idx) (b : Fin 32) (p : Fin 64) (e : Fin 768)
    (h0 : (i 0).val = b.val) (h1 : (i 1).val = p.val + 1) (h2 : (i 2).val = e.val) :
    tile x wt cls pos i
      = (∑ k : Fin 48, x (ix3 b p k) * wt (ix2 k e)) + pos (ix3 0 ⟨p.val + 1, by have := p.isLt; omega⟩ e) := by
  obtain ⟨i0, i1, i2, rfl⟩ : ∃ (i0 : Fin 32) (i1 : Fin 65) (i2 : Fin 768), i = ix3 i0 i1 i2 := ⟨i 0, i 1, i 2, eq_ix3 i⟩
  obtain rfl : i0 = b := Fin.ext h0
  obtain rfl : i2 = e := Fin.ext h2
  refine (tileAt_succ x wt cls pos i0 i1 i2 p h1).trans ?_
  exact congrArg (fun n : Fin 65 => (∑ k : Fin 48, x (ix3 i0 p k) * wt (ix2 k i2)) + pos (ix3 0 n i2)) (Fin.ext h1)

theorem embed_zero_of (patches : FVec Ideal ⟨3, ![1024, 64, 48]⟩ .f32) (w : FVec Ideal ⟨2, ![768, 48]⟩ .f32)
    (cls : FVec Ideal ⟨2, ![1, 768]⟩ .f32) (pos : FVec Ideal ⟨3, ![1, 65, 768]⟩ .f32)
    (i : (⟨3, ![1024, 65, 768]⟩ : Shape).Idx) (e : Fin 768) (h1 : (i 1).val = 0) (h2 : (i 2).val = e.val) :
    embed patches w cls pos i = cls (ix2 0 e) + pos (ix3 0 0 e) := by
  obtain ⟨i0, i1, i2, rfl⟩ : ∃ (i0 : Fin 1024) (i1 : Fin 65) (i2 : Fin 768), i = ix3 i0 i1 i2 := ⟨i 0, i 1, i 2, eq_ix3 i⟩
  obtain rfl : i2 = e := Fin.ext h2
  exact embedAt_zero patches w cls pos i0 i1 i2 h1

theorem embed_succ_of (patches : FVec Ideal ⟨3, ![1024, 64, 48]⟩ .f32) (w : FVec Ideal ⟨2, ![768, 48]⟩ .f32)
    (cls : FVec Ideal ⟨2, ![1, 768]⟩ .f32) (pos : FVec Ideal ⟨3, ![1, 65, 768]⟩ .f32)
    (i : (⟨3, ![1024, 65, 768]⟩ : Shape).Idx) (b : Fin 1024) (p : Fin 64) (e : Fin 768)
    (h0 : (i 0).val = b.val) (h1 : (i 1).val = p.val + 1) (h2 : (i 2).val = e.val) :
    embed patches w cls pos i
      = (∑ k : Fin 48, patches (ix3 b p k) * w (ix2 e k)) + pos (ix3 0 ⟨p.val + 1, by have := p.isLt; omega⟩ e) := by
  obtain ⟨i0, i1, i2, rfl⟩ : ∃ (i0 : Fin 1024) (i1 : Fin 65) (i2 : Fin 768), i = ix3 i0 i1 i2 := ⟨i 0, i 1, i 2, eq_ix3 i⟩
  obtain rfl : i0 = b := Fin.ext h0
  obtain rfl : i2 = e := Fin.ext h2
  refine (embedAt_succ patches w cls pos i0 i1 i2 p h1).trans ?_
  exact congrArg (fun n : Fin 65 => (∑ k : Fin 48, patches (ix3 i0 p k) * w (ix2 i2 k)) + pos (ix3 0 n i2)) (Fin.ext h1)

/-- A tile of the batch. Tile T holds images 32 T to 32 T + 31; if the tile's patches are the batch's
    patches of those images, the transposed weights are the weights transposed, and class token and
    position embeddings are the same, then the embedded tile is that stretch of the embedded batch. -/
theorem tile_eq_embed (patches : FVec Ideal ⟨3, ![1024, 64, 48]⟩ .f32) (w : FVec Ideal ⟨2, ![768, 48]⟩ .f32)
    (cls : FVec Ideal ⟨2, ![1, 768]⟩ .f32) (pos : FVec Ideal ⟨3, ![1, 65, 768]⟩ .f32)
    (x : FVec Ideal ⟨3, ![32, 64, 48]⟩ .f32) (wt : FVec Ideal ⟨2, ![48, 768]⟩ .f32)
    (cls' : FVec Ideal ⟨2, ![1, 768]⟩ .f32) (pos' : FVec Ideal ⟨3, ![1, 65, 768]⟩ .f32)
    (T : Nat) (hT : T < 32)
    (hx : ∀ (b : Fin 32) (p : Fin 64) (k : Fin 48),
      x (ix3 b p k) = patches (ix3 ⟨T * 32 + b.val, by have := b.isLt; omega⟩ p k))
    (hwt : ∀ (k : Fin 48) (e : Fin 768), wt (ix2 k e) = w (ix2 e k))
    (hcls : cls' = cls) (hpos : pos' = pos)
    (j : (⟨3, ![32, 65, 768]⟩ : Shape).Idx) (i : (⟨3, ![1024, 65, 768]⟩ : Shape).Idx)
    (h0 : (i 0).val = T * 32 + (j 0).val) (h1 : (i 1).val = (j 1).val) (h2 : (i 2).val = (j 2).val) :
    tile x wt cls' pos' j = embed patches w cls pos i := by
  subst hcls hpos
  have hj0 : (j 0).val < 32 := (j 0).isLt
  have hj1 : (j 1).val < 65 := (j 1).isLt
  have hj2 : (j 2).val < 768 := (j 2).isLt
  by_cases hz : (j 1).val = 0
  · rw [tile_zero_of x wt cls' pos' j ⟨(j 2).val, hj2⟩ hz rfl,
      embed_zero_of patches w cls' pos' i ⟨(j 2).val, hj2⟩ (h1.trans hz) h2]
  · rw [tile_succ_of x wt cls' pos' j ⟨(j 0).val, hj0⟩ ⟨(j 1).val - 1, by omega⟩ ⟨(j 2).val, hj2⟩ rfl (by show (j 1).val = (j 1).val - 1 + 1; omega) rfl,
      embed_succ_of patches w cls' pos' i ⟨T * 32 + (j 0).val, by omega⟩ ⟨(j 1).val - 1, by omega⟩ ⟨(j 2).val, hj2⟩ h0
        (by show (i 1).val = (j 1).val - 1 + 1; omega) h2]
    refine congrArg (· + _) (Finset.sum_congr rfl fun k _ => ?_)
    rw [hx, hwt]

end Cert.PatchEmbed

end
-- ==== Proof.Payload.lean ====
/-
  The two stores of the kernel body, each read at one entry.

  The first store writes token 0 of every image of the tile: the class token, re-laid from one row
  to a 1 by 1 by 768 slab and repeated over the 32 images, plus row 0 of the position embeddings,
  repeated likewise. The second store writes tokens 1 to 64: the tile's 32 times 64 patches, laid out
  as 2048 rows of 48 numbers, times the 48 by 768 transposed weight matrix, accumulated from zero,
  laid back as 32 by 64 by 768, plus rows 1 to 64 of the position embeddings repeated over the images.
  Narrowing a number to a shorter float format changes nothing on the extended reals.
-/
import proofs.«147871_j33809982554293_1_alg».proof.Proof.Gen.KernelIdeal.Skeleton
import proofs.«147871_j33809982554293_1_alg».proof.Proof.Embed
import Idealize.ShloMosaic.Lib.Pipeline.Value
import Idealize.ShloMosaic.Lib.ValueIdx
import Idealize.ShloMosaic.PureOps.Ideal.Laws

noncomputable section

open scoped BigOperators

namespace Cert.PatchEmbed

open Cert.KernelIdeal Cert.KernelIdeal.Gen Idealize.ShloMosaic Idealize.ShloMosaic.ValueIdx

/-- The first store at (image b, the one token of the slab, feature e): class token plus position embedding 0. -/
theorem pay1_apply (v9 : Vec Ideal S1x65x768 .f32) (v10 : Vec Ideal S1x768 .f32) (b : Fin 32) (z : Fin 1) (e : Fin 768) :
    k0_pay1 (F := Ideal) v9 v10 (ix3 b z e) = v10 (ix2 0 e) + v9 (ix3 0 0 e) := by
  unfold k0_pay1
  rw [addf_apply]
  refine congrArg₂ (· + ·) ?_ ?_
  · refine (broadcastTo_apply _ broadcasts_S1x1x768_S32x1x768 (ix3 b z e) (ix3 0 0 e)
      (fun a => match a with | ⟨0, _⟩ => rfl | ⟨1, _⟩ => rfl | ⟨2, _⟩ => rfl)).trans ?_
    rw [shapeCast_self]
    exact shapeCast_apply _ _ (ix3 0 0 e) (ix2 0 e) (by rw [Shape.rowMajor_val_two, Shape.rowMajor_val_three]; rfl)
  · refine (broadcastTo_apply _ broadcasts_S1x1x768_S32x1x768 (ix3 b z e) (ix3 0 0 e)
      (fun a => match a with | ⟨0, _⟩ => rfl | ⟨1, _⟩ => rfl | ⟨2, _⟩ => rfl)).trans ?_
    exact extractStridedSlice_apply _ _ _ (ix3 0 0 e) (ix3 0 0 e)
      (fun a => match a with | ⟨0, _⟩ => rfl | ⟨1, _⟩ => rfl | ⟨2, _⟩ => by show e.val = 0 + e.val; omega)

/-! The matrix product's two operands are read at (output row, summation index) and (summation index, output column). -/

theorem mm_lhs_0 (i : S2048x768.Idx) (q : dot_S2048x48_S48x768_S2048x768_1_0_0_1_n_n.contr.Idx) :
    (dot_S2048x48_S48x768_S2048x768_1_0_0_1_n_n.lhsIdx i q 0).val = (i 0).val := by
  unfold DotDims.lhsIdx
  rw [dif_neg (show ¬(0 : Fin S2048x48.rank) ∈ dot_S2048x48_S48x768_S2048x768_1_0_0_1_n_n.lhsBatch by decide), dif_pos (show (0 : Fin S2048x48.rank) ∈ dot_S2048x48_S48x768_S2048x768_1_0_0_1_n_n.lhsNonContracting by decide)]
  rfl
theorem mm_lhs_1 (i : S2048x768.Idx) (q : dot_S2048x48_S48x768_S2048x768_1_0_0_1_n_n.contr.Idx) :
    (dot_S2048x48_S48x768_S2048x768_1_0_0_1_n_n.lhsIdx i q 1).val = (q ⟨0, by decide⟩).val :=
  dot_S2048x48_S48x768_S2048x768_1_0_0_1_n_n.lhsIdx_val_of_single rfl i q
theorem mm_rhs_0 (i : S2048x768.Idx) (q : dot_S2048x48_S48x768_S2048x768_1_0_0_1_n_n.contr.Idx) :
    (dot_S2048x48_S48x768_S2048x768_1_0_0_1_n_n.rhsIdx i q 0).val = (q ⟨0, by decide⟩).val :=
  dot_S2048x48_S48x768_S2048x768_1_0_0_1_n_n.rhsIdx_val_of_single rfl i q
theorem mm_rhs_1 (i : S2048x768.Idx) (q : dot_S2048x48_S48x768_S2048x768_1_0_0_1_n_n.contr.Idx) :
    (dot_S2048x48_S48x768_S2048x768_1_0_0_1_n_n.rhsIdx i q 1).val = (i 1).val := by
  unfold DotDims.rhsIdx
  rw [dif_neg (show ¬(1 : Fin S48x768.rank) ∈ dot_S2048x48_S48x768_S2048x768_1_0_0_1_n_n.rhsBatch by decide), dif_pos (show (1 : Fin S48x768.rank) ∈ dot_S2048x48_S48x768_S2048x768_1_0_0_1_n_n.rhsNonContracting by decide)]
  rfl

/-- The matrix product accumulated from zero, at (row r, column e): the sum over the 48 shared indices. -/
theorem matmul_at (x : FVec Ideal S2048x48 .bf16) (y : FVec Ideal S48x768 .bf16) (r : Fin 2048) (e : Fin 768) :
    matmul dot_S2048x48_S48x768_S2048x768_1_0_0_1_n_n none x y (constant S2048x768 .f32 0x00000000#32) (ix2 r e)
      = ∑ k : Fin 48, x (ix2 r k) * y (ix2 k e) := by
  show FloatOps.matmul dot_S2048x48_S48x768_S2048x768_1_0_0_1_n_n none x y (constant S2048x768 .f32 0x00000000#32) (ix2 r e) = _
  rw [Ideal.matmul_constant_zero_apply, ← Equiv.sum_comp (contrEquiv1 dot_S2048x48_S48x768_S2048x768_1_0_0_1_n_n 48 rfl rfl).symm]
  refine Finset.sum_congr rfl fun k _ => ?_
  have hk := contrEquiv1_symm_val dot_S2048x48_S48x768_S2048x768_1_0_0_1_n_n 48 rfl rfl k
  have el : dot_S2048x48_S48x768_S2048x768_1_0_0_1_n_n.lhsIdx (ix2 r e) ((contrEquiv1 dot_S2048x48_S48x768_S2048x768_1_0_0_1_n_n 48 rfl rfl).symm k) = ix2 r k := funext fun a => Fin.ext (by
    match a with
    | ⟨0, _⟩ => exact mm_lhs_0 _ _
    | ⟨1, _⟩ => exact (mm_lhs_1 _ _).trans hk)
  have er : dot_S2048x48_S48x768_S2048x768_1_0_0_1_n_n.rhsIdx (ix2 r e) ((contrEquiv1 dot_S2048x48_S48x768_S2048x768_1_0_0_1_n_n 48 rfl rfl).symm k) = ix2 k e := funext fun a => Fin.ext (by
    match a with
    | ⟨0, _⟩ => exact (mm_rhs_0 _ _).trans hk
    | ⟨1, _⟩ => exact mm_rhs_1 _ _)
  rw [el, er]

/-- Image b, patch p of a tile is row 64 b + p of the 2048 rows. -/
theorem row_lt (b : Fin 32) (p : Fin 64) : b.val * 64 + p.val < 2048 := by have := b.isLt; have := p.isLt; omega

/-- The second store at (image b, patch p, feature e): the patch projected, plus position embedding p + 1. -/
theorem pay2_apply (v0 : Vec Ideal S32x64x48 .f32) (v4 : Vec Ideal S48x768 .f32) (v9 : Vec Ideal S1x65x768 .f32)
    (b : Fin 32) (p : Fin 64) (e : Fin 768) :
    k0_pay2 (F := Ideal) v0 v4 v9 (ix3 b p e)
      = (∑ k : Fin 48, v0 (ix3 b p k) * v4 (ix2 k e)) + v9 (ix3 0 ⟨p.val + 1, by have := p.isLt; omega⟩ e) := by
  unfold k0_pay2
  rw [addf_apply]
  refine congrArg₂ (· + ·) ?_ ?_
  · refine (shapeCast_apply _ shapeCasts_S2048x768_S32x64x768 (ix3 b p e) (ix2 ⟨b.val * 64 + p.val, row_lt b p⟩ e)
      (by rw [Shape.rowMajor_val_two, Shape.rowMajor_val_three]; rfl)).trans ?_
    rw [matmul_at]
    refine Finset.sum_congr rfl fun k _ => ?_
    refine congrArg₂ (· * ·) ?_ ?_
    · refine (shapeCast_apply _ shapeCasts_S32x64x48_S2048x48 (ix2 ⟨b.val * 64 + p.val, row_lt b p⟩ k) (ix3 b p k)
        (by rw [Shape.rowMajor_val_two, Shape.rowMajor_val_three]; rfl)).trans ?_
      rw [truncf_apply, shapeCast_self]
    · rw [truncf_apply, shapeCast_self]
  · refine (broadcastTo_apply _ broadcasts_S1x64x768_S32x64x768 (ix3 b p e) (ix3 0 p e)
      (fun a => match a with | ⟨0, _⟩ => rfl | ⟨1, _⟩ => rfl | ⟨2, _⟩ => rfl)).trans ?_
    exact extractStridedSlice_apply _ _ _ (ix3 0 p e) (ix3 0 ⟨p.val + 1, by have := p.isLt; omega⟩ e)
      (fun a => match a with
        | ⟨0, _⟩ => rfl
        | ⟨1, _⟩ => by show p.val + 1 = 1 + p.val; omega
        | ⟨2, _⟩ => by show e.val = 0 + e.val; omega)

end Cert.PatchEmbed

end
-- ==== Proof.Body.lean ====
/-
  What one grid point leaves in the output tile.

  The body's two stores fill the tile: the first the slab of token 0, the second the slab of tokens
  1 to 64. Each store's value at an entry is the tile function of the Embed module at the entry the
  store's rectangle sends it to, so the tile read back is that function.
-/
import proofs.«147871_j33809982554293_1_alg».proof.Proof.Gen.KernelIdeal.Frame
import proofs.«147871_j33809982554293_1_alg».proof.Proof.Payload

set_option maxRecDepth 16384

noncomputable section

open scoped BigOperators

namespace Cert.PatchEmbed

open Cert.KernelIdeal Cert.KernelIdeal.Gen Idealize.ShloMosaic Idealize.ShloMosaic.TcCoe Idealize.ShloMosaic.ValueIdx
open Idealize.ShloMosaic.Tactic

/-- Offsets that are all zero, at rank three and two. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The slab of token 0 agrees with the tile function where its rectangle puts it. -/
theorem slab0_eq (x0 : Vec Ideal S32x64x48 .f32) (x1 : Vec Ideal S48x768 .f32) (x2 : Vec Ideal S1x768 .f32) (x3 : Vec Ideal S1x65x768 .f32)
    (x : (Rect.unit (s := S32x65x768) ![0, 0, 0] S32x1x768.size inb_S32x65x768_S32x1x768_0_0_0).shape.Idx) :
    k0_pay1 (F := Ideal) x3 x2 x = tile x0 x1 x2 x3 ((Rect.unit (s := S32x65x768) ![0, 0, 0] S32x1x768.size inb_S32x65x768_S32x1x768_0_0_0).emb x) := by
  obtain ⟨b, z, e, rfl⟩ : ∃ (b : Fin 32) (z : Fin 1) (e : Fin 768), x = ix3 b z e := ⟨x 0, x 1, x 2, eq_ix3 x⟩
  rw [pay1_apply]
  refine (tile_zero_of x0 x1 x2 x3 _ e ?_ ?_).symm
  · show 0 + 1 * z.val = 0
    have := z.isLt; omega
  · show 0 + 1 * e.val = e.val
    omega

/-- The slab of tokens 1 to 64 agrees with the tile function where its rectangle puts it. -/
theorem slab1_eq (x0 : Vec Ideal S32x64x48 .f32) (x1 : Vec Ideal S48x768 .f32) (x2 : Vec Ideal S1x768 .f32) (x3 : Vec Ideal S1x65x768 .f32)
    (x : (Rect.unit (s := S32x65x768) ![0, 1, 0] S32x64x768.size inb_S32x65x768_S32x64x768_0_1_0).shape.Idx) :
    k0_pay2 (F := Ideal) x0 x1 x3 x = tile x0 x1 x2 x3 ((Rect.unit (s := S32x65x768) ![0, 1, 0] S32x64x768.size inb_S32x65x768_S32x64x768_0_1_0).emb x) := by
  obtain ⟨b, p, e, rfl⟩ : ∃ (b : Fin 32) (p : Fin 64) (e : Fin 768), x = ix3 b p e := ⟨x 0, x 1, x 2, eq_ix3 x⟩
  rw [pay2_apply]
  refine (tile_succ_of x0 x1 x2 x3 _ b p e ?_ ?_ ?_).symm
  · show 0 + 1 * b.val = b.val
    omega
  · show 1 + 1 * p.val = p.val + 1
    omega
  · show 0 + 1 * e.val = e.val
    omega

/-- What one grid point leaves in the output tile, from the blocks it loads: the tile function. -/
theorem out_eq (c : Dev nD) (i : grid0.Coords) (arg1 : Memref sig .tc .vmem S32x64x48 .f32) (harg1 : arg1.IsWhole) (arg2 : Memref sig .tc .vmem S48x768 .f32) (harg2 : arg2.IsWhole) (arg3 : Memref sig .tc .vmem S1x768 .f32) (harg3 : arg3.IsWhole) (arg4 : Memref sig .tc .vmem S1x65x768 .f32) (harg4 : arg4.IsWhole) (arg5 : Memref sig .tc .vmem S32x65x768 .f32) (harg5 : arg5.IsWhole)
    (x0 : Vec Ideal S32x64x48 .f32) (x1 : Vec Ideal S48x768 .f32) (x2 : Vec Ideal S1x768 .f32) (x3 : Vec Ideal S1x65x768 .f32) :
    out0_A_4 (F := Ideal) c i arg1 harg1 arg2 harg2 arg3 harg3 arg4 harg4 arg5 harg5 x0 x1 x2 x3 = tile x0 x1 x2 x3 := by
  unfold out0_A_4
  rw [View.read_writes_eq_canon _ _ _ (cover0_A_4 c i arg1 harg1 arg2 harg2 arg3 harg3 arg4 harg4 arg5 harg5 x0 x1 x2 x3)]
  funext y
  refine View.canon_apply_of_pieces (tile x0 x1 x2 x3) _ ?_ y (cover0_A_4 c i arg1 harg1 arg2 harg2 arg3 harg3 arg4 harg4 arg5 harg5 x0 x1 x2 x3 y)
  unfold kernelRun0_A
  dsimp only
  sl_unfold_words
  simp only [View.readAt_eq_ld, Memref.IsWhole.read_unread, View.ld_unit_zero (S := S32x64x48) zeros3, View.ld_unit_zero (S := S48x768) zeros2,
    View.ld_unit_zero (S := S1x768) zeros2, View.ld_unit_zero (S := S1x65x768) zeros3]
  intro p hp
  simp only [List.mem_cons, List.not_mem_nil, or_false] at hp
  rcases hp with rfl | rfl
  · exact slab1_eq x0 x1 x2 x3
  · exact slab0_eq x0 x1 x2 x3

end Cert.PatchEmbed

end
-- ==== Proof.Blocks.lean ====
/-
  From tiles to the whole output array.

  Grid point t works on images 32 t to 32 t + 31: its patch block is that stretch of the patch
  array, its output block that stretch of the output array; the transposed weights, the class token
  and the position embeddings are fetched whole at every point. So what point t writes back is
  that stretch of the embedded batch, and the 32 points' blocks fill the array.
-/
import proofs.«147871_j33809982554293_1_alg».proof.Proof.Gen.KernelIdeal.Value
import proofs.«147871_j33809982554293_1_alg».proof.Proof.Body
import Idealize.ShloMosaic.Lib.StableHlo.Run

set_option maxRecDepth 16384

noncomputable section

open scoped BigOperators

namespace Cert.PatchEmbed

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The patches of a batch of images: each 32 by 32 image of each of the 3 channels cut into an 8 by 8
    board of 4 by 4 squares, the board's squares listed row by row, and the 48 numbers of a square
    (channel, row in the square, column in the square) listed in that order. -/
def patchesOf (x : FVec Ideal S1024x1x3x32x32 .f32) : FVec Ideal S1024x64x48 .f32 :=
  shapeCast S1024x64x48 (transpose S1024x8x8x1x3x4x4 [0, 3, 5, 1, 2, 4, 6]
    (shapeCast S1024x1x3x8x4x8x4 x shapeCasts_S1024x1x3x32x32_S1024x1x3x8x4x8x4)
    transposes_S1024x1x3x8x4x8x4_S1024x8x8x1x3x4x4_0_3_5_1_2_4_6) shapeCasts_S1024x8x8x1x3x4x4_S1024x64x48

/-- The region finds the patch array at the patches of the images. -/
theorem V_patches (c : Dev nD) :
    (V m c main_v2 : S1024x64x48.Idx → EReal) = patchesOf (m ((c : Thread nD τ).loc main_arg0)) := by
  dsimp only [Gen.V, Gen.hostOps0]
  after_results
  rfl

/-- The region finds the transposed weights at the weights transposed. -/
theorem V_wt (c : Dev nD) :
    (V m c main_v3 : S48x768.Idx → EReal)
      = transpose S48x768 [1, 0] (m ((c : Thread nD τ).loc main_arg1)) transposes_S768x48_S48x768_1_0 := by
  dsimp only [Gen.V, Gen.hostOps0]
  after_results

/-- The printed index maps over the grid: the patch block and the output block of point t are the
    t-th along the images, everything else is block 0. -/
theorem block_indices : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- What point t writes back is the stretch of the embedded batch its output block covers. -/
theorem written_back_eq (c : Dev nD) (t : Fin cfg0.N) :
    (dats m 0 c).flushed 4 t = ((cfg0.win 4).blk t).view.read (Elt Ideal)
      (embed (patchesOf (m ((c : Thread nD τ).loc main_arg0))) (m ((c : Thread nD τ).loc main_arg1))
        (m ((c : Thread nD τ).loc main_arg2)) (m ((c : Thread nD τ).loc main_arg3))) := by
  rw [Cert.KernelIdeal.Value.flushed4_A, out_eq]
  obtain ⟨a0, a1, a2, b0, b1, c0, c1, d0, d1, d2, e0, e1, e2⟩ := block_indices t
  funext j
  show tile (iblk m c 0 t) (iblk m c 1 t) (iblk m c 2 t) (iblk m c 3 t) j
    = embed (patchesOf (m ((c : Thread nD τ).loc main_arg0))) (m ((c : Thread nD τ).loc main_arg1))
        (m ((c : Thread nD τ).loc main_arg2)) (m ((c : Thread nD τ).loc main_arg3)) (((cfg0.win 4).blk t).view.emb j)
  refine tile_eq_embed _ _ _ _ _ _ _ _ t.val (show t.val < 32 from t.isLt) ?_ ?_ ?_ ?_ j _ ?_ ?_ ?_
  · intro b p k
    show V m c main_v2 (((cfg0.win 0).blk t).view.emb (ix3 b p k)) = _
    rw [V_patches]
    refine congrArg _ (funext fun a => Fin.ext ?_)
    match a with
    | ⟨0, _⟩ => show win0_0.index t (0 : Fin 3) * 32 + 1 * b.val = t.val * 32 + b.val; omega
    | ⟨1, _⟩ => show win0_0.index t (1 : Fin 3) * 64 + 1 * p.val = p.val; omega
    | ⟨2, _⟩ => show win0_0.index t (2 : Fin 3) * 48 + 1 * k.val = k.val; omega
  · intro k e
    show V m c main_v3 (((cfg0.win 1).blk t).view.emb (ix2 k e)) = _
    rw [V_wt]
    exact transpose_apply _ _ _ _ (ix2 e k) (fun b => match b with
      | ⟨0, _⟩ => by show k.val = win0_1.index t (0 : Fin 2) * 48 + 1 * k.val; omega
      | ⟨1, _⟩ => by show e.val = win0_1.index t (1 : Fin 2) * 768 + 1 * e.val; omega)
  · funext y
    show V m c main_arg2 (((cfg0.win 2).blk t).view.emb y) = _
    rw [V_main_arg2]
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 768 + 1 * (y 1).val = (y 1).val; omega
  · funext y
    show V m c main_arg3 (((cfg0.win 3).blk t).view.emb y) = _
    rw [V_main_arg3]
    refine congrArg _ (funext fun a => Fin.ext ?_)
    match a with
    | ⟨0, _⟩ => show win0_3.index t (0 : Fin 3) * 1 + 1 * (y 0).val = (y 0).val; omega
    | ⟨1, _⟩ => show win0_3.index t (1 : Fin 3) * 65 + 1 * (y 1).val = (y 1).val; omega
    | ⟨2, _⟩ => show win0_3.index t (2 : Fin 3) * 768 + 1 * (y 2).val = (y 2).val; omega
  · show win0_4.index t (0 : Fin 3) * 32 + 1 * (j 0).val = t.val * 32 + (j 0).val
    omega
  · show win0_4.index t (1 : Fin 3) * 65 + 1 * (j 1).val = (j 1).val
    omega
  · show win0_4.index t (2 : Fin 3) * 768 + 1 * (j 2).val = (j 2).val
    omega

/-- An index of the output array is in point t's block iff each coordinate is in the block's range. -/
theorem mem_block_iff (t : Fin cfg0.N) (i : S1024x65x768.Idx) :
    i ∈ ((cfg0.win 4).blk t).view.set ↔ ∀ a : Fin 3, win0_4.index t a * S32x65x768.size a ≤ (i a).val ∧ (i a).val < win0_4.index t a * S32x65x768.size a + S32x65x768.size a := by
  show i ∈ ((View.whole main_v4).slice (win0_4.rect t)).set ↔ _
  rw [View.set_slice_whole, Rect.mem_set_unit]
  exact Iff.rfl

/-- Image i is in the block of point i / 32. -/
theorem every_image_covered (i : S1024x65x768.Idx) : ∃ t : Fin cfg0.N, (cfg0.win 4).flush t = true ∧ i ∈ ((cfg0.win 4).blk t).view.set := by
  have h0 : (i 0).val < 1024 := (i 0).isLt
  have h1 : (i 1).val < 65 := (i 1).isLt
  have h2 : (i 2).val < 768 := (i 2).isLt
  refine ⟨⟨(i 0).val / 32, by show (i 0).val / 32 < 32; omega⟩, flush0_4 _, ?_⟩
  rw [mem_block_iff]
  obtain ⟨a0, a1, a2, b0, b1, c0, c1, d0, d1, d2, e0, e1, e2⟩ := block_indices ⟨(i 0).val / 32, by show (i 0).val / 32 < 32; omega⟩
  intro a
  match a with
  | ⟨0, _⟩ => show win0_4.index _ (0 : Fin 3) * 32 ≤ (i 0).val ∧ (i 0).val < win0_4.index _ (0 : Fin 3) * 32 + 32; rw [e0]; show (i 0).val / 32 * 32 ≤ (i 0).val ∧ (i 0).val < (i 0).val / 32 * 32 + 32; omega
  | ⟨1, _⟩ => show win0_4.index _ (1 : Fin 3) * 65 ≤ (i 1).val ∧ (i 1).val < win0_4.index _ (1 : Fin 3) * 65 + 65; rw [e1]; omega
  | ⟨2, _⟩ => show win0_4.index _ (2 : Fin 3) * 768 ≤ (i 2).val ∧ (i 2).val < win0_4.index _ (2 : Fin 3) * 768 + 768; rw [e2]; omega

/-- After the run the output array is the embedded batch. -/
theorem output_eq_embed (c : Dev nD) :
    (dats m 0 c).arrAt 4 cfg0.N
      = embed (patchesOf (m ((c : Thread nD τ).loc main_arg0))) (m ((c : Thread nD τ).loc main_arg1))
          (m ((c : Thread nD τ).loc main_arg2)) (m ((c : Thread nD τ).loc main_arg3)) :=
  (dats m 0 c).arrAt_eq_of_cover 4 _ (fun t _ => written_back_eq m c t) every_image_covered

/-- The kernel's run with the output array named. -/
theorem kernel_run : θ_run defs (onTc (τ := τ) (main (F := Ideal))) ⟨m, fun _ => 0, ρ⟩ fun r => ∀ c : Dev nD,
      r.2.mem ((c : Thread nD τ).loc main_v4)
        = embed (patchesOf (m ((c : Thread nD τ).loc main_arg0))) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (output_eq_embed m c), (h c).2⟩)
    (Cert.KernelIdeal.Value.run_blocks m ρ)

end Cert.PatchEmbed

end
-- ==== Proof.RefValue.lean ====
/-
  The reference is the embedded batch.

  The reference multiplies every patch by the weight matrix (contracting the 48 patch entries against
  the weight matrix's second axis), puts the class token, repeated over the images, in front of the 64
  projected patches of every image, and adds the position embeddings, repeated over the images, to the
  whole. Read at one entry: at token 0 the position embedding plus the class token, at token p + 1
  the position embedding plus the sum of 48 products. Addition of extended reals commutes, so this
  is the entry of the embedded batch.
-/
import proofs.«147871_j33809982554293_1_alg».proof.Proof.Gen.ReferenceIdeal.Read
import proofs.«147871_j33809982554293_1_alg».proof.Proof.Embed

noncomputable section

open scoped BigOperators

namespace Cert.PatchEmbed.Ref

open Cert.PatchEmbed Cert.ReferenceIdeal Cert.ReferenceIdeal.Gen Cert.ReferenceIdeal.Read
open Idealize.ShloMosaic Idealize.ShloMosaic.ValueIdx

theorem ref_eq (x0 : FVec Ideal S1024x1x3x32x32 .f32) (x1 : FVec Ideal S768x48 .f32) (x2 : FVec Ideal S1x768 .f32)
    (x3 : FVec Ideal S1x65x768 .f32) :
    val_main_v8 (F := Ideal) x0 x1 x2 x3 = embed (val_main_v2 (F := Ideal) x0) x1 x2 x3 := by
  funext i
  obtain ⟨b, n, e, rfl⟩ : ∃ (b : Fin 1024) (n : Fin 65) (e : Fin 768), i = ix3 b n e := ⟨i 0, i 1, i 2, eq_ix3 i⟩
  rw [val_main_v8_apply, val_main_v7_apply]
  show x3 (idx_main_v7 (ix3 b n e)) + val_main_v6 (F := Ideal) x0 x1 x2 (ix3 b n e) = _
  have hn : n.val < 65 := n.isLt
  have hpos : idx_main_v7 (ix3 b n e) = ix3 (0 : Fin 1) n e :=
    funext fun a => Fin.ext (by match a with | ⟨0, _⟩ => rfl | ⟨1, _⟩ => rfl | ⟨2, _⟩ => rfl)
  rw [hpos, add_comm]
  unfold val_main_v6
  by_cases hz : n.val = 0
  · rw [embed_zero_of _ _ _ _ (ix3 b n e) e hz rfl]
    rw [concatenate_pair_apply_left (t := S1024x65x768) (s₁ := S1024x1x768) (s₂ := S1024x64x768) (1 : Fin 3) (val_main_v5 (F := Ideal) x2) (val_main_v3 (F := Ideal) x0 x1) concatenates_S1024x1x768_S1024x64x768_S1024x65x768_d1 (ix3 b n e) rfl (ix3 b (0 : Fin 1) e)
      (fun a => match a with | ⟨0, _⟩ => rfl | ⟨1, _⟩ => hz.symm | ⟨2, _⟩ => rfl)]
    rw [val_main_v5_apply, val_main_v4_apply]
    have hcls : idx_main_v4 (idx_main_v5 (ix3 b (0 : Fin 1) e)) = ix2 (0 : Fin 1) e :=
      funext fun a => Fin.ext (by match a with | ⟨0, _⟩ => rfl | ⟨1, _⟩ => rfl)
    have hn0 : n = (0 : Fin 65) := Fin.ext hz
    rw [hcls, hn0]
  · have hp : n.val - 1 < 64 := by omega
    rw [embed_succ_of _ _ _ _ (ix3 b n e) b ⟨n.val - 1, hp⟩ e rfl (by show n.val = n.val - 1 + 1; omega) rfl]
    rw [concatenate_pair_apply_right (t := S1024x65x768) (s₁ := S1024x1x768) (s₂ := S1024x64x768) (1 : Fin 3) (val_main_v5 (F := Ideal) x2) (val_main_v3 (F := Ideal) x0 x1) concatenates_S1024x1x768_S1024x64x768_S1024x65x768_d1 (ix3 b n e) rfl rfl (ix3 b (⟨n.val - 1, hp⟩ : Fin 64) e)
      (fun a ha => match a, ha with
        | ⟨0, _⟩, _ => rfl
        | ⟨1, _⟩, ha => absurd rfl ha
        | ⟨2, _⟩, _ => rfl)
      (by show n.val - 1 + 1 = n.val; omega)]
    rw [val_main_v3_apply]
    have hnn : n = ⟨n.val - 1 + 1, by omega⟩ := Fin.ext (by show n.val = n.val - 1 + 1; omega)
    refine congrArg₂ (· + ·) (Finset.sum_congr rfl fun k _ => ?_) (congrArg (fun q : Fin 65 => x3 (ix3 (0 : Fin 1) q e)) hnn)
    refine congrArg₂ (· * ·) (congrArg _ ?_) (congrArg _ ?_)
    · exact funext fun a => Fin.ext (by match a with | ⟨0, _⟩ => rfl | ⟨1, _⟩ => rfl | ⟨2, _⟩ => rfl)
    · exact funext fun a => Fin.ext (by match a with | ⟨0, _⟩ => rfl | ⟨1, _⟩ => rfl)

end Cert.PatchEmbed.Ref

end
-- ==== Proof.lean ====
/-
  The kernel embeds a batch of 1024 images, 32 images per grid point: it cuts every image into 64
  patches of 48 numbers, projects every patch by the weight matrix, puts the class token in front,
  and adds the position embeddings. The reference does the same with one product for the whole batch,
  a concatenation and one addition. On the extended reals both results are one function of the four
  inputs, entry by entry (the module Embed states it): the only difference left between the two sides
  is the order of the two summands of the last addition, and addition commutes. The patch extraction is
  the same three operations in both programs and is never opened.

  The kernel's side: Payload reads the two stores of the body at an entry, Body reads back the tile a grid
  point leaves, Blocks puts the 32 tiles together. The reference's side: RefValue. Nothing was rewritten
  when the kernel was idealized, so the idealization claim is trivial, and no step needs the inputs finite.
-/
import proofs.«147871_j33809982554293_1_alg».proof.Defs
import proofs.«147871_j33809982554293_1_alg».proof.Proof.Gen.Kernel
import proofs.«147871_j33809982554293_1_alg».proof.Proof.Gen.Kernel.Skeleton
import proofs.«147871_j33809982554293_1_alg».proof.Proof.Gen.Kernel.Launch
import proofs.«147871_j33809982554293_1_alg».proof.Proof.Gen.Kernel.Points
import proofs.«147871_j33809982554293_1_alg».proof.Proof.Gen.Kernel.Frame
import proofs.«147871_j33809982554293_1_alg».proof.Proof.Gen.KernelIdeal
import proofs.«147871_j33809982554293_1_alg».proof.Proof.Gen.KernelIdeal.Skeleton
import proofs.«147871_j33809982554293_1_alg».proof.Proof.Gen.KernelIdeal.Launch
import proofs.«147871_j33809982554293_1_alg».proof.Proof.Gen.KernelIdeal.Points
import proofs.«147871_j33809982554293_1_alg».proof.Proof.Gen.KernelIdeal.Frame
import proofs.«147871_j33809982554293_1_alg».proof.Proof.Gen.ReferenceIdeal
import proofs.«147871_j33809982554293_1_alg».proof.Proof.Gen.Pre_finite_inputs
import proofs.«147871_j33809982554293_1_alg».proof.Proof.Gen.KernelIdeal.Value
import proofs.«147871_j33809982554293_1_alg».proof.Proof.Gen.ReferenceIdeal.Run
import proofs.«147871_j33809982554293_1_alg».proof.Proof.Gen.ReferenceIdeal.Read
import proofs.«147871_j33809982554293_1_alg».proof.Proof.Blocks
import proofs.«147871_j33809982554293_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the embedded batch of their (equal) inputs. -/
theorem algebraic : Cert.algebraic_KernelIdeal_ReferenceIdeal := by
  intro m ρ m' ρ' _ hagree
  refine ⟨_, Cert.PatchEmbed.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.PatchEmbed.Ref.ref_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
